-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S1024x128 .f32 .bf16
  ∧ IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x128 : Shape := ⟨2, ![1024, 128]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S8192x1024 .f32) (main_arg1 : FVec F S1024x128 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩
abbrev S8192x8192 : Shape := ⟨2, ![8192, 8192]⟩
abbrev S128x1024 : Shape := ⟨2, ![128, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x8192, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1024, .f32⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond1 (i : grid1.Coords) : BitVec 1 :=
  let arg0 : BitVec 32 := BitVec.ofNat 32 (i 0).val
  let arg1 : BitVec 32 := BitVec.ofNat 32 (i 1).val
  let v23 : BitVec 1 := Scalar.cmpi .eq arg0 arg1
  let v24 : BitVec 32 := Scalar.extui v23
  let c0_i32 : BitVec 32 := 0#32
  let v25 : BitVec 1 := Scalar.cmpi .ne v24 c0_i32
  v25

def k1_cond2 (i : grid1.Coords) : BitVec 1 :=
  let arg0 : BitVec 32 := BitVec.ofNat 32 (i 0).val
  let arg1 : BitVec 32 := BitVec.ofNat 32 (i 1).val
  let v26 : BitVec 1 := Scalar.cmpi .ne arg0 arg1
  let v27 : BitVec 32 := Scalar.extui v26
  let c0_i32_6 : BitVec 32 := 0#32
  let v28 : BitVec 1 := Scalar.cmpi .ne v27 c0_i32_6
  v28

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x128_S1024 : S1024x128.Reduces [1] S1024
  shapeCasts_S1024_S1024x1 : S1024.ShapeCasts S1024x1
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  dot_S1024x1024_S1024x128_S1024x128_1_0_0_1_n_n_wf : DotDims.WF S1024x1024 S1024x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond1 i == 1#1) && !(k1_cond2 i == 1#1) | ⟨_ + 3, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x128 : Shape := ⟨2, ![1024, 128]⟩
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S128x8192, .f32⟩
  | .hbm, ⟨7, _⟩ => ⟨S8192x8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .i32⟩
  | .hbm, ⟨18, _⟩ => ⟨S8192x8192, .i32⟩
  | .hbm, ⟨19, _⟩ => ⟨S_, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x1024_S1024x128_S8192x128_1_0_0_1_n_n_wf : DotDims.WF S8192x1024 S1024x128 S8192x128 [1] [0] [0] [1] [] []
  dot_S8192x128_S128x8192_S8192x8192_1_0_0_1_n_n_wf : DotDims.WF S8192x128 S128x8192 S8192x8192 [1] [0] [0] [1] [] []

variable [Facts₀]

def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KI.Region0.lean ====
/-
  The projection region of the idealized kernel (pipeline 0: eight points, one per block of 1024 rows).
  At each point the body multiplies the point's 1024 x 1024 block of the first argument by the whole
  second argument and stores the 1024 x 128 product over its output block. This module states, for
  any contents `V` of the core's buffers at the region's entry, what every staging buffer holds
  around the body at every point, runs the body once on arbitrary whole buffers, and derives the
  per-point obligation the pipeline rule asks for.
-/
import proofs.«165348_j25958782337133_1_alg».proof.Proof.Gen.KernelIdeal.Launch
import proofs.«165348_j25958782337133_1_alg».proof.Proof.Gen.KernelIdeal.Skeleton
import proofs.«165348_j25958782337133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, the array read at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window: whatever proof data has `V`'s array behind it and a body that leaves the
    block alone finds the point's block in the current staging buffer. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The projection-matrix window (fetched once, its block index constant): the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole 1024 x 128 output block. -/
abbrev rOut0 : Rect S1024x128 := Rect.unit (s := S1024x128) ![0, 0] S1024x128.size inb_S1024x128_S1024x128_0_0

/-- The rectangle the body loads the row block through: all of it. -/
abbrev rIn0 : Rect S1024x1024 := Rect.unit (s := S1024x1024) ![0, 0] S1024x1024.size inb_S1024x1024_S1024x1024_0_0

/-- What the body leaves in the output block, from the two input blocks: the product of what it
    loads (each input block whole), stored whole. -/
def out0_2 (x0 : Vec F S1024x1024 .f32) (x1 : Vec F S1024x128 .f32) : Vec F S1024x128 .f32 :=
  View.canon [⟨rOut0, k0_pay1 (View.ld x0 rIn0) (View.ld x1 rOut0)⟩]

/-- That one store covers the block. -/
theorem cover0_2 (p0 : Vec F S1024x128 .f32) (y : S1024x128.Idx) :
    ∃ pc ∈ ([⟨rOut0, p0⟩] : List (View.Piece (Elt F) S1024x128 .f32)), y ∈ pc.1.set :=
  View.cover_of_tiled [⟨rOut0, p0⟩] S1024x128.size (by rfl) y

set_option maxHeartbeats 1000000 in
/-- The body on any three whole staging buffers, the inputs at `x0`, `x1` and the output at anything:
    it ends with the inputs as they were and the output at `out0_2 x0 x1`. -/
theorem sound_kernel0 (c : Dev nD) (E : Set ℕ) (i : grid0.Coords)
    (a1 : Memref sig .tc .vmem S1024x1024 .f32) (ha1 : a1.IsWhole) (a2 : Memref sig .tc .vmem S1024x128 .f32) (ha2 : a2.IsWhole)
    (a3 : Memref sig .tc .vmem S1024x128 .f32) (ha3 : a3.IsWhole)
    (x0 : Vec F S1024x1024 .f32) (x1 : Vec F S1024x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1 ∗ owns (c : Thread nD τ) a3 fullShare (out0_2 x0 x1)) -∗ K ⟨⟩))
      ⊢ wp frame (wpE (defs₀ (F := F)) Variants.none c none) E (cc0__proj_kernel i a1 ha1 a2 ha2 a3 ha3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 (F := F) _)

/-- The region's proof data on core `c`: the arrays as `V` has them; after the body each input buffer
    still at its block and the output buffer at the product of the two blocks; nothing of the core's
    other state is used (the scoped rest and the generator register ride along); nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the pipeline hands the body at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it wants back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's obligation for this region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Region1.lean ====
/-
  The distance region of the idealized kernel (pipeline 1: an 8 x 8 grid of 1024 x 1024 output tiles).
  Both input windows read ONE array — the projected rows — at the tile's row block and at its column
  block. At a point on the grid's diagonal the body stores the tile of squared distances plus the
  small constant on the tile's own diagonal; off the grid's diagonal it stores the tile of squared
  distances as it is. Exactly one of the two branches runs at every point, and each stores the whole
  tile. This module states, for any contents `V` of the core's buffers at the region's entry, what
  every staging buffer holds around the body at every point, runs the body in each of the two cases on
  arbitrary whole buffers, and derives the per-point obligation the pipeline rule asks for.
-/
import proofs.«165348_j25958782337133_1_alg».proof.Proof.Gen.KernelIdeal.Launch
import proofs.«165348_j25958782337133_1_alg».proof.Proof.Gen.KernelIdeal.Skeleton
import proofs.«165348_j25958782337133_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block of its array at point `t`, the array read at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window (fetched when the grid's row changes): any proof data with `V`'s array behind
    it and a body that leaves the block alone finds the point's block in the current staging buffer. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column-block window (fetched at every point): the same. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangle each input block is loaded through: all of it. -/
abbrev rBlk1 : Rect S1024x128 := Rect.unit (s := S1024x128) ![0, 0] S1024x128.size inb_S1024x128_S1024x128_0_0
/-- The rectangle the tile is stored through: all of it. -/
abbrev rOut1 : Rect S1024x1024 := Rect.unit (s := S1024x1024) ![0, 0] S1024x1024.size inb_S1024x1024_S1024x1024_0_0

/-- The tile a point ON the grid's diagonal leaves: distances plus the constant on the tile's diagonal. -/
def outDiag (x0 x1 : Vec F S1024x128 .f32) : Vec F S1024x1024 .f32 :=
  View.canon [⟨rOut1, k1_pay2 (View.ld x0 rBlk1) (View.ld x1 rBlk1)⟩]
/-- The tile a point OFF the grid's diagonal leaves: the distances. -/
def outOff (x0 x1 : Vec F S1024x128 .f32) : Vec F S1024x1024 .f32 :=
  View.canon [⟨rOut1, k1_pay1 (View.ld x0 rBlk1) (View.ld x1 rBlk1)⟩]

/-- What the body leaves in the tile at grid coordinates `i`, from the two input blocks. -/
def out1_2 (i : grid1.Coords) (x0 x1 : Vec F S1024x128 .f32) : Vec F S1024x1024 .f32 :=
  if k1_cond1 i = 1#1 then outDiag x0 x1 else outOff x0 x1

/-- One whole-tile store covers the tile. -/
theorem cover1_2 (p0 : Vec F S1024x1024 .f32) (y : S1024x1024.Idx) :
    ∃ pc ∈ ([⟨rOut1, p0⟩] : List (View.Piece (Elt F) S1024x1024 .f32)), y ∈ pc.1.set :=
  View.cover_of_tiled [⟨rOut1, p0⟩] S1024x1024.size (by rfl) y

/-- At every point of the grid exactly one of the body's two branch conditions holds (the coordinates are
    equal, or they differ): decided over the 64 points. -/
theorem conds1 : ∀ t : Fin cfg1.N,
    (k1_cond1 (grid1.coords t) = 1#1 ∧ ¬ k1_cond2 (grid1.coords t) = 1#1) ∨ (¬ k1_cond1 (grid1.coords t) = 1#1 ∧ k1_cond2 (grid1.coords t) = 1#1) :=
  (by decide +kernel : ∀ t : Fin grid1.N,
    (k1_cond1 (grid1.coords t) = 1#1 ∧ ¬ k1_cond2 (grid1.coords t) = 1#1) ∨ (¬ k1_cond1 (grid1.coords t) = 1#1 ∧ k1_cond2 (grid1.coords t) = 1#1))

/-- So the output window is idle at no point. -/
theorem live1_2 : ∀ t : Fin cfg1.N, cfg1.idle 2 (cfg1.grid.coords t) = false :=
  (by decide +kernel : ∀ t : Fin grid1.N, idle1 2 (grid1.coords t) = false)

set_option maxHeartbeats 1000000 in
/-- The body at coordinates on the diagonal, on any three whole staging buffers, the inputs at `x0`, `x1`
    and the tile at anything: it ends with the inputs as they were and the tile at `outDiag x0 x1`. -/
theorem sound_kernel1_diag (c : Dev nD) (E : Set ℕ) (i : grid1.Coords)
    (a2 : Memref sig .tc .vmem S1024x128 .f32) (ha2 : a2.IsWhole) (a3 : Memref sig .tc .vmem S1024x128 .f32) (ha3 : a3.IsWhole)
    (a4 : Memref sig .tc .vmem S1024x1024 .f32) (ha4 : a4.IsWhole)
    (h1 : k1_cond1 i = 1#1) (h2 : ¬ k1_cond2 i = 1#1)
    (x0 x1 : Vec F S1024x128 .f32) (K : PUnit → sProp 𝕄) :
    iprop(owns (c : Thread nD τ) a2 fullShare x0 ∗ owns (c : Thread nD τ) a3 fullShare x1 ∗ (∃ d, owns (c : Thread nD τ) a4 fullShare d)
        ∗ (iprop(owns (c : Thread nD τ) a2 fullShare x0 ∗ owns (c : Thread nD τ) a3 fullShare x1 ∗ owns (c : Thread nD τ) a4 fullShare (outDiag x0 x1)) -∗ K ⟨⟩))
      ⊢ wp frame (wpE (defs₀ (F := F)) Variants.none c none) E (cc1__dist_kernel i a2 ha2 a3 ha3 a4 ha4) K := by
  simp only [cc1__dist_kernel_eq_skeleton]; unfold cc1__dist_kernel_skel
  unfold owns
  iintro ⟨⟨%f0, %hf0, H0⟩, ⟨%f1, %hf1, H1⟩, ⟨%d2, %f2, -, H2⟩, Hk⟩
  subst hf0
  subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 (F := F) _)

set_option maxHeartbeats 1000000 in
/-- The body at coordinates off the diagonal: the tile ends at `outOff x0 x1`. -/
theorem sound_kernel1_off (c : Dev nD) (E : Set ℕ) (i : grid1.Coords)
    (a2 : Memref sig .tc .vmem S1024x128 .f32) (ha2 : a2.IsWhole) (a3 : Memref sig .tc .vmem S1024x128 .f32) (ha3 : a3.IsWhole)
    (a4 : Memref sig .tc .vmem S1024x1024 .f32) (ha4 : a4.IsWhole)
    (h1 : ¬ k1_cond1 i = 1#1) (h2 : k1_cond2 i = 1#1)
    (x0 x1 : Vec F S1024x128 .f32) (K : PUnit → sProp 𝕄) :
    iprop(owns (c : Thread nD τ) a2 fullShare x0 ∗ owns (c : Thread nD τ) a3 fullShare x1 ∗ (∃ d, owns (c : Thread nD τ) a4 fullShare d)
        ∗ (iprop(owns (c : Thread nD τ) a2 fullShare x0 ∗ owns (c : Thread nD τ) a3 fullShare x1 ∗ owns (c : Thread nD τ) a4 fullShare (outOff x0 x1)) -∗ K ⟨⟩))
      ⊢ wp frame (wpE (defs₀ (F := F)) Variants.none c none) E (cc1__dist_kernel i a2 ha2 a3 ha3 a4 ha4) K := by
  simp only [cc1__dist_kernel_eq_skeleton]; unfold cc1__dist_kernel_skel
  unfold owns
  iintro ⟨⟨%f0, %hf0, H0⟩, ⟨%f1, %hf1, H1⟩, ⟨%d2, %f2, -, H2⟩, Hk⟩
  subst hf0
  subst hf1
  sl_exec (disch := first | exact h1 | exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 (F := F) _)

/-- The region's proof data on core `c`: the arrays as `V` has them; after the body each input buffer
    still at its block and the tile at `out1_2` of the two blocks; the two input windows hold the one
    array they share at the two halves of the full share; nothing of the core's other state is used;
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (grid1.coords t) (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the pipeline hands the body at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it wants back (the tile's buffer as the rule states it for a window that may be idle). -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ (dat1 V c).leavesExact 2 t)

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  have hlive : (dat1 V c).leavesExact 2 t = owns (c : Thread nD τ) (st1_2 t) fullShare ((dat1 V c).after 2 t) := by
    unfold Dat.leavesExact; rw [live1_2 t]
  rw [hlive, show (dat1 V c).Φ t.succ = (dat1 V c).Φ t.castSucc from rfl,
    show (dat1 V c).owesAt () t.succ = (dat1 V c).owesAt () t.castSucc from rfl,
    after1_0, after1_1, after1_2]
  unfold out1_2
  rcases conds1 t with ⟨h1, h2⟩ | ⟨h1, h2⟩
  · rw [if_pos h1]
    iintro ⟨HΦ, Ho, ⟨%d0, H0⟩, ⟨%d1, H1⟩, ⟨%d2, H2⟩⟩
    iapply (sound_kernel1_diag c Set.univ _ _ _ _ _ _ _ h1 h2 (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [if_neg h1]
    iintro ⟨HΦ, Ho, ⟨%d0, H0⟩, ⟨%d1, H1⟩, ⟨%d2, H2⟩⟩
    iapply (sound_kernel1_off c Set.univ _ _ _ _ _ _ _ h1 h2 (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2

/-- The pipeline rule's obligation for this region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.Run.lean ====
/-
  The idealized kernel's whole run: @main is the projection region followed by the distance region.

  Between the two regions the core's unscoped buffers (the two arguments, the projected rows
  `main_v0`, the result `main_v1`) are tracked at named contents: as launched; after the projection
  region, `main_v0` at what its eight write-backs leave; after the distance region, `main_v1` at
  what its 64 write-backs leave. The distance region reads `main_v0` through two windows at once,
  so at its entry the array's full share is dealt out as two halves, one per window, and joined again
  at the exit. The run ends with every unscoped buffer at the last contents; the frame claim and the
  value of the result are both read off that.
-/
import proofs.«165348_j25958782337133_1_alg».proof.Proof.KI.Region0
import proofs.«165348_j25958782337133_1_alg».proof.Proof.KI.Region1

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m ((c : Dev nD), b)
/-- The same read at the TensorCore's references: what the projection region is entered from. -/
abbrev V0 : (c : Dev nD) → (b : Ref sig .tc) → Buf (Elt F) ((c : Thread nD τ).loc b) := fun c b => W0 m c b
/-- After the projection region: its arrays at what the pipeline leaves, every other buffer as entered. -/
def W2 (c : Dev nD) : Valuation τ sig (Elt F) :=
  Pipeline.withArrays spec0 c (W0 m c) fun w => (dat0 (V0 m) c).arrAt w cfg0.N
theorem W2_arr (c : Dev nD) (w : Fin cfg0.W) :
    W2 m c (Proc.devRef .tc (Pipeline.arrRef spec0 w)) = (dat0 (V0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
/-- The same at the TensorCore's references: what the distance region is entered from. -/
abbrev V2 : (c : Dev nD) → (b : Ref sig .tc) → Buf (Elt F) ((c : Thread nD τ).loc b) := fun c b => W2 m c b
theorem hF0 (c : Dev nD) (w : Fin cfg0.W) : (dat0 (V0 m) c).arrAt w cfg0.N = V2 m c (Pipeline.arrRef spec0 w) :=
  (W2_arr m c w).symm
theorem hrest0 (c : Dev nD) : ∀ b, b ∉ Finset.univ.image (Pipeline.arrRef spec0) → V2 m c b = V0 m c b :=
  fun b hb => W2_of_ne m c b fun w e => hb (Finset.mem_image.mpr ⟨w, Finset.mem_univ _, e⟩)

/-- What the distance region leaves in the result array. -/
abbrev result (c : Dev nD) : Buf (Elt F) ((c : Thread nD τ).loc main_v1) := (dat1 (V2 m) c).arrAt 2 cfg1.N
/-- After the distance region: the result array at what the pipeline leaves, every other buffer as entered. -/
def W4 (c : Dev nD) : Valuation τ sig (Elt F) := Function.update (W2 m c) main_v1 (result m c)
theorem W4_result (c : Dev nD) : W4 m c (Proc.devRef .tc main_v1) = result m c := by
  unfold W4; exact Function.update_self ..
theorem W4_of_ne (c : Dev nD) (b : Ref sig .tc) (hb : b ≠ main_v1) :
    W4 m c (Proc.devRef .tc b) = W2 m c (Proc.devRef .tc b) := by
  unfold W4; exact Function.update_of_ne (StableHlo.devRef_ne_of_ne hb) ..
/-- The same at the TensorCore's references. -/
abbrev V4 : (c : Dev nD) → (b : Ref sig .tc) → Buf (Elt F) ((c : Thread nD τ).loc b) := fun c b => W4 m c b

/-- Neither region writes an argument: each reaches the end as launched. -/
theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (V0 m) c).arrAt_in 0 rfl _).trans (A_eq0 (V0 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 1).trans (((dat0 (V0 m) c).arrAt_in 1 rfl _).trans (A_eq0 (V0 m) c 1))
    _ = m ((c : Thread nD τ).loc main_arg1) := rfl
/-- The projected rows the distance region reads are what the projection region left. -/
theorem V2_main_v0 (c : Dev nD) : V2 m c main_v0 = (dat0 (V0 m) c).arrAt 2 cfg0.N := W2_arr m c 2

/-! ## The shared array at the distance region's two ends -/

section Shared
variable (V : (c : Dev nD) → (b : Ref sig .tc) → Buf (Elt F) ((c : Thread nD τ).loc b))

/-- The distance region's arrays, window by window: the projected rows at the left half share and at the
    right half share, the result at the full share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2)) := by
  unfold Dat.arrays
  rw [bigSep_W1, (arr_whole1 0).set_eq_univ, (arr_whole1 2).set_eq_univ]
  rfl

/-- The two buffers behind the distance region's arrays. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0) ↦{fullShare} V' main_v0) ∗ (((c : Thread nD τ).loc main_v1) ↦{fullShare} V' main_v1)) := by
  unfold Pipeline.arrBufs
  exact bigSep_eq_bigSepL_of_eq [main_v0, main_v1] (by decide) (by decide) _

/-- ENTRY: the core's unscoped buffers at `V` give the distance region its arrays at their entry contents —
    the projected rows' full share dealt as two halves — and the two arguments beside them. -/
theorem arrays1_of_unscopedBufs (c : Dev nD) :
    (unscopedBufs c (V c) : sProp 𝕄) ⊢ iprop((dat1 V c).arrays ((dat1 V c).arrAt · 0) ∗ Pipeline.unscopedRest spec1 c (V c)) := by
  have h1 : (unscopedBufs c (V c) : sProp 𝕄) = iprop(Pipeline.arrBufs spec1 c (V c) ∗ Pipeline.unscopedRest spec1 c (V c)) :=
    Pipeline.unscopedBufs_split₀ cfgs 1 winFacts₀1.arr_unscoped c (V c)
  rw [h1, arrBufs1_eq, arrays1_eq]
  iintro ⟨⟨H0, H1⟩, Hr⟩
  ihave H0' := (pointsTo_share (PosShare.mem_left_op_right fullShare)).1 $$ H0
  icases H0' with ⟨Hl, Hrt⟩
  isplitr [Hr]
  · isplitl [Hl]; · iexact Hl
    isplitl [Hrt]; · iexact Hrt
    iexact H1
  iexact Hr

/-- EXIT: the arrays at their final contents — the two halves of the projected rows, untouched, joined
    again — and the two arguments are the core's unscoped buffers at any contents `V'` that has the result
    at what the region left and agrees with `V` elsewhere. -/
theorem unscopedBufs_of_arrays1 (c : Dev nD) (V' : (b : Ref sig .tc) → Buf (Elt F) ((c : Thread nD τ).loc b))
    (h0 : V' main_v0 = V c main_v0) (h1 : V' main_v1 = (dat1 V c).arrAt 2 cfg1.N)
    (ha0 : V' main_arg0 = V c main_arg0) (ha1 : V' main_arg1 = V c main_arg1) :
    iprop((dat1 V c).arrays ((dat1 V c).arrAt · cfg1.N) ∗ Pipeline.unscopedRest spec1 c (V c)) ⊢ (unscopedBufs c V' : sProp 𝕄) := by
  have hs : (unscopedBufs c V' : sProp 𝕄) = iprop(Pipeline.arrBufs spec1 c V' ∗ Pipeline.unscopedRest spec1 c V') :=
    Pipeline.unscopedBufs_split₀ cfgs 1 winFacts₀1.arr_unscoped c V'
  have e0 : (dat1 V c).arrAt 0 cfg1.N = V c main_v0 := ((dat1 V c).arrAt_in 0 rfl _).trans (A_eq1 V c 0)
  have e1 : (dat1 V c).arrAt 1 cfg1.N = V c main_v0 := ((dat1 V c).arrAt_in 1 rfl _).trans (A_eq1 V c 1)
  rw [hs, arrBufs1_eq, arrays1_eq, unscopedRest1_eq, unscopedRest1_eq, e0, e1, h0, h1, ha0, ha1]
  iintro ⟨⟨Hl, Hrt, H1⟩, Hr⟩
  isplitr [Hr]
  · isplitr [H1]
    · iapply (pointsTo_share (PosShare.mem_left_op_right fullShare)).2
      isplitl [Hl] <;> iassumption
    iexact H1
  iexact Hr

end Shared

/-! ## The proof data of both pipelines, and what rides beside the buffers -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The projection region: entered from the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The distance region: entered from `W2`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (unscopedBufs c (V2 m c) : sProp 𝕄)
        ⊢ iprop((pdats m 1 c).arrays ((pdats m 1 c).arrAt · 0) ∗ Pipeline.unscopedRest spec1 c (V2 m c)) := arrays1_of_unscopedBufs (V2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V2 m c))
        ⊢ (unscopedBufs c (V4 m c) : sProp 𝕄) := unscopedBufs_of_arrays1 (V2 m) c (V4 m c)
      (W4_of_ne m c main_v0 (by decide)) (W4_result m c) (W4_of_ne m c main_arg0 (by decide)) (W4_of_ne m c main_arg1 (by decide))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the two segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing
    faulting, and the final memory holds every unscoped buffer of every core at `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run m ρ)

/-- The run with the result named: the result array ends at what the distance region leaves, computed
    from the projected rows the projection region left. -/
theorem run_result : θ_run defs (onTc (τ := τ) (main (F := F))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v1 (by decide))).trans (W4_result m c),
     (h c _ (mem_uc main_arg0 (by decide))).trans (W4_main_arg0 m c),
     (h c _ (mem_uc main_arg1 (by decide))).trans (W4_main_arg1 m c)⟩) (run m ρ)

end Cert.KernelIdeal.Frame

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«165348_j25958782337133_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.Spec.lean ====
/-
  The mathematics both programs compute, as plain functions of the argument arrays over the
  extended reals.

  Rows `e r` of an 8192 x 1024 matrix are projected by a 1024 x 128 matrix `w` to rows
  `P r = e r · w` of length 128. The result is the 8192 x 8192 table of squared distances by the
  norm expansion, `‖P r‖² + ‖P c‖² − 2 · (P r · P c)`, with a small constant added on the diagonal
  `r = c`. The two float constants are kept as the words both programs write.
-/
import Idealize.ShloMosaic.Lib.ValueIdx
import Idealize.ShloMosaic.PureOps.Ideal.Laws
import proofs.«165348_j25958782337133_1_alg».proof.Proof.LibDenseLayer

noncomputable section

namespace Cert.Dist

open Idealize.ShloMosaic Idealize.ShloMosaic.ValueIdx Cert.DenseLayer
open scoped BigOperators

/-- The projected rows: row `r`, column `k` is the sum over `j` of `e (r, j) · w (j, k)`. -/
def proj (e : Mat 8192 1024) (w : Mat 1024 128) : Mat 8192 128 :=
  fun i => prodRow e w (i 0) (i 1)

theorem proj_apply (e : Mat 8192 1024) (w : Mat 1024 128) (r : Fin 8192) (k : Fin 128) :
    proj e w (ix2 r k) = prodRow e w r k := rfl

/-- The inner product of row `r` of `x` with row `c` of `y` (rows of length `K`). -/
def rowDot {a b K : ℕ} (x : Mat a K) (y : Mat b K) (r : Fin a) (c : Fin b) : EReal :=
  ∑ k : Fin K, x (ix2 r k) * y (ix2 c k)

/-- The factor two, as the word the programs write. -/
def two : EReal := Ideal.ofBits .f32 0x40000000#32
/-- The constant added on the diagonal, as the word the programs write. -/
def eps : EReal := Ideal.ofBits .f32 0x322BCC77#32

/-- The norm expansion for a row `r` of `x` against a row `c` of `y`:
    `‖x r‖² + ‖y c‖² − 2 · (x r · y c)`. -/
def expand {a b K : ℕ} (x : Mat a K) (y : Mat b K) (r : Fin a) (c : Fin b) : EReal :=
  (rowDot x x r r + rowDot y y c c) - two * rowDot x y r c

/-- The squared distance between rows `r` and `c` of `p`, the constant added where `r = c`. -/
def distAt (p : Mat 8192 128) (r c : Fin 8192) : EReal :=
  expand p p r c + (if r = c then eps else 0)

/-- The table of squared distances between the rows of `p`. -/
def dist (p : Mat 8192 128) : Mat 8192 8192 :=
  fun i => distAt p (i 0) (i 1)

theorem dist_apply (p : Mat 8192 128) (r c : Fin 8192) :
    dist p (ix2 r c) = expand p p r c + (if r = c then eps else 0) := rfl

end Cert.Dist

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«165348_j25958782337133_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.KI.Tile.lean ====
/-
  The distance kernel's two stored values read at an entry of the tile, at the ideal values.
-/
import proofs.«165348_j25958782337133_1_alg».proof.Proof.Gen.KernelIdeal.Skeleton
import proofs.«165348_j25958782337133_1_alg».proof.Proof.Spec
import proofs.«165348_j25958782337133_1_alg».proof.Proof.LibPlainDot
import Idealize.ShloMosaic.Lib.ValueLayout
import Idealize.ShloMosaic.Lib.Pipeline.Value
import Idealize.ShloMosaic.Lib.Affine

noncomputable section

namespace Cert.KernelIdeal.Tile

open Idealize.ShloMosaic Idealize.ShloMosaic.ValueIdx Cert.KernelIdeal Cert.KernelIdeal.Gen Cert.Dist Cert.DenseLayer
open scoped BigOperators

/-- The squared norms of the rows of `v`, summed along each row, set as a column and laid over the columns:
    at `(p, q)` the squared norm of row `p`. -/
theorem sq_over_columns_apply (v : FVec Ideal S1024x128 .f32) (p q : Fin 1024) :
    broadcastTo S1024x1024
        (shapeCast S1024x1 (multiReduction .add [1] S1024 (mulf v v) 0x00000000#32 reduces_S1024x128_S1024 (.inl rfl) rfl)
          shapeCasts_S1024_S1024x1) broadcasts_S1024x1_S1024x1024 (ix2 p q)
      = rowDot v v p p :=
  (Cert.ColumnLayout.column_over_columns_apply _ shapeCasts_S1024_S1024x1 broadcasts_S1024x1_S1024x1024 p q).trans
    (Cert.ColumnLayout.multiReduction_add_rows_apply (mulf v v) _ reduces_S1024x128_S1024 (.inl rfl) rfl p)

/-- The same column transposed into a row and laid over the rows: at `(p, q)` the squared norm of row `q`. -/
theorem sq_over_rows_apply (v : FVec Ideal S1024x128 .f32) (p q : Fin 1024) :
    broadcastTo S1024x1024
        (transpose S1x1024 [1, 0]
          (shapeCast S1024x1 (multiReduction .add [1] S1024 (mulf v v) 0x00000000#32 reduces_S1024x128_S1024 (.inl rfl) rfl)
            shapeCasts_S1024_S1024x1) transposes_S1024x1_p1_0_S1x1024) broadcasts_S1x1024_S1024x1024 (ix2 p q)
      = rowDot v v q q :=
  (Cert.ColumnLayout.column_as_row_over_rows_apply _ shapeCasts_S1024_S1024x1 transposes_S1024x1_p1_0_S1x1024
      broadcasts_S1x1024_S1024x1024 p q).trans
    (Cert.ColumnLayout.multiReduction_add_rows_apply (mulf v v) _ reduces_S1024x128_S1024 (.inl rfl) rfl q)

/-- The product of `v` with the transpose of `w`, at `(p, q)`: the inner product of row `p` of `v` with
    row `q` of `w`. -/
theorem cross_apply (v w : FVec Ideal S1024x128 .f32) (p q : Fin 1024) :
    matmul dot_S1024x128_S128x1024_S1024x1024_1_0_0_1_n_n none (truncf .bf16 v bitsLt_bf16_f32)
        (transpose S128x1024 [1, 0] (truncf .bf16 w bitsLt_bf16_f32) transposes_S1024x128_p1_0_S128x1024)
        (constant S1024x1024 .f32 0x00000000#32) (ix2 p q)
      = rowDot v w p q :=
  (matmul_zero_apply (plainDot_of_axes dot_S1024x128_S128x1024_S1024x1024_1_0_0_1_n_n rfl rfl rfl rfl rfl rfl) none _ _
      (ix2 p q)).trans
    (Finset.sum_congr rfl fun k _ =>
      congrArg (v (ix2 p k) * ·) (transpose_ix2_apply (truncf .bf16 w bitsLt_bf16_f32) transposes_S1024x128_p1_0_S128x1024 k q))

/-- The projection kernel's stored value at `(p, q)`: row `p` of the row block times column `q`. -/
theorem pay_proj_apply (x0 : Vec Ideal S1024x1024 .f32) (x1 : Vec Ideal S1024x128 .f32) (p : Fin 1024) (q : Fin 128) :
    k0_pay1 (F := Ideal) x0 x1 (ix2 p q) = prodRow x0 x1 p q := by
  unfold k0_pay1
  exact matmul_zero_apply (plainDot_of_axes dot_S1024x1024_S1024x128_S1024x128_1_0_0_1_n_n rfl rfl rfl rfl rfl rfl) none _ _
    (ix2 p q)

/-- Off the grid's diagonal the tile's entry `(p, q)` is the norm expansion of row `p` of the row block
    against row `q` of the column block. -/
theorem pay_off_apply (x0 x1 : Vec Ideal S1024x128 .f32) (p q : Fin 1024) :
    k1_pay1 (F := Ideal) x0 x1 (ix2 p q) = expand x0 x1 p q := by
  unfold k1_pay1
  refine (congrArg₂ (fun a b : EReal => a - b)
    (congrArg₂ (fun a b : EReal => a + b) (sq_over_columns_apply _ p q) (sq_over_rows_apply _ p q))
    (congrArg (fun c : EReal => two * c) (cross_apply _ _ p q))).trans ?_
  rw [shapeCast_self, shapeCast_self]
  rfl

/-- The compare of the row position with the column position selects the first value where they agree. -/
theorem select_iota_eq (p q : Fin 1024) (a b : EReal) :
    Scalar.select (IntOp.cmpi .eq (BitVec.ofNat 32 p.val) (BitVec.ofNat 32 q.val)) a b = if p = q then a else b := by
  have h : IntOp.cmpi .eq (BitVec.ofNat 32 p.val) (BitVec.ofNat 32 q.val) = 1#1 ↔ p = q := by
    rw [IntOp.cmpi_eq]
    constructor
    · intro h
      have h' := congrArg BitVec.toNat h
      simp only [BitVec.toNat_ofNat] at h'
      have hp := p.isLt
      have hq := q.isLt
      exact Fin.ext (by omega)
    · rintro rfl
      rfl
  unfold Scalar.select
  by_cases hpq : p = q
  · exact (if_pos (h.mpr hpq)).trans (if_pos hpq).symm
  · exact (if_neg fun hc => hpq (h.mp hc)).trans (if_neg hpq).symm

/-- On the grid's diagonal the constant is added where the entry is on the tile's own diagonal. -/
theorem pay_diag_apply (x0 x1 : Vec Ideal S1024x128 .f32) (p q : Fin 1024) :
    k1_pay2 (F := Ideal) x0 x1 (ix2 p q) = expand x0 x1 p q + (if p = q then eps else 0) := by
  unfold k1_pay2
  show k1_pay1 x0 x1 (ix2 p q)
      + Scalar.select (IntOp.cmpi .eq (iota .tc S1024x1024 32 [0] iota_S1024x1024_d0_w32 (ix2 p q))
          (iota .tc S1024x1024 32 [1] iota_S1024x1024_d1_w32 (ix2 p q))) eps (Ideal.ofBits .f32 0x00000000#32) = _
  rw [pay_off_apply, iota_single_apply, iota_single_apply, Ideal.ofBits_zero_f32]
  exact congrArg (expand x0 x1 p q + ·) (select_iota_eq p q eps 0)

end Cert.KernelIdeal.Tile

end
-- ==== Proof.KI.Value0.lean ====
/-
  What the projection region leaves in its output array: the projected rows.
-/
import proofs.«165348_j25958782337133_1_alg».proof.Proof.KI.Region0
import proofs.«165348_j25958782337133_1_alg».proof.Proof.KI.Tile
import Idealize.ShloMosaic.Lib.Pipeline.Value

set_option maxRecDepth 16384

noncomputable section

namespace Cert.KernelIdeal.Frame

open Idealize.ShloMosaic Idealize.ShloMosaic.TcCoe Idealize.ShloMosaic.ValueIdx
open Idealize.ShloMosaic.Pipeline (Dat Cfg Window)
open Cert.KernelIdeal Cert.KernelIdeal.Gen Cert.Dist Cert.DenseLayer

variable (V : (c : Dev nD) → (b : Ref sig .tc) → Buf (Elt Ideal) ((c : Thread nD τ).loc b))

namespace Proj

/-- The zero offsets of a whole-block rectangle, as the constant function. -/
theorem origin_eq_zero : (![0, 0] : Fin 2 → Nat) = fun _ => 0 :=
  funext fun a => match a with
    | ⟨0, _⟩ => rfl
    | ⟨1, _⟩ => rfl

/-- Where each window's block sits at point `t`: the row blocks of the first argument and of the output are the
    `t`-th, the second argument's block is the only one. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the body leaves in the output block, entry by entry: the block of rows times the matrix. -/
theorem out_block_apply (x0 : Vec Ideal S1024x1024 .f32) (x1 : Vec Ideal S1024x128 .f32) (p : Fin 1024) (q : Fin 128) :
    out0_2 (F := Ideal) x0 x1 (ix2 p q) = prodRow x0 x1 p q := by
  unfold out0_2
  rw [View.canon_unit_zero origin_eq_zero]
  simp only [View.ld_unit_zero (S := S1024x1024) origin_eq_zero, View.ld_unit_zero (S := S1024x128) origin_eq_zero]
  exact Cert.KernelIdeal.Tile.pay_proj_apply x0 x1 p q

/-- Row `p` of the first argument's block at point `t` is row `1024 t + p` of the argument. -/
theorem row_block_apply (c : Dev nD) (t : Fin cfg0.N) (p : Fin 1024) (k : Fin 1024) (r : Fin 8192)
    (hr : r.val = 1024 * t.val + p.val) :
    (iblk0 V c 0 t : Vec Ideal S1024x1024 .f32) (ix2 p k) = (V c main_arg0 : Mat 8192 1024) (ix2 r k) := by
  obtain ⟨e0, e1, -⟩ := block_index t
  unfold iblk0
  rw [View.read_apply]
  show V c main_arg0 _ = V c main_arg0 _
  congr 1
  funext a; apply Fin.ext
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

/-- The second argument's block at every point is the whole argument. -/
theorem matrix_block_eq (c : Dev nD) (t : Fin cfg0.N) :
    (iblk0 V c 1 t : Vec Ideal S1024x128 .f32) = (V c main_arg1 : Mat 1024 128) := by
  obtain ⟨-, -, e0, e1, -⟩ := block_index t
  funext j
  unfold iblk0
  rw [View.read_apply]
  show V c main_arg1 _ = V c main_arg1 _
  congr 1
  funext a; apply Fin.ext
  match a with
  | ⟨0, _⟩ => show win0_1.index t (0 : Fin 2) * 1024 + 1 * (j 0).val = (j 0).val; rw [e0]; omega
  | ⟨1, _⟩ => show win0_1.index t (1 : Fin 2) * 128 + 1 * (j 1).val = (j 1).val; rw [e1]; omega

/-- At point `t` the body's output block at `(p, q)` is the projection at row `1024 t + p`, column `q`. -/
theorem point_apply (c : Dev nD) (t : Fin cfg0.N) (p : Fin 1024) (q : Fin 128) (r : Fin 8192)
    (hr : r.val = 1024 * t.val + p.val) :
    out0_2 (F := Ideal) (iblk0 V c 0 t) (iblk0 V c 1 t) (ix2 p q) = proj (V c main_arg0) (V c main_arg1) (ix2 r q) := by
  refine (out_block_apply (iblk0 V c 0 t) (iblk0 V c 1 t) p q).trans ?_
  rw [matrix_block_eq V c t]
  exact congrFun (prodRow_congr _ _ _ p r (fun k => row_block_apply V c t p k r hr)) q

/-- The same over any index of the block and the index of the array it sits at. -/
theorem point_apply_at (c : Dev nD) (t : Fin cfg0.N) (j : S1024x128.Idx) (i : S8192x128.Idx)
    (h0 : (i 0).val = 1024 * t.val + (j 0).val) (h1 : (i 1).val = (j 1).val) :
    out0_2 (F := Ideal) (iblk0 V c 0 t) (iblk0 V c 1 t) j = proj (V c main_arg0) (V c main_arg1) i := by
  obtain ⟨p, q, rfl⟩ : ∃ (p : Fin 1024) (q : Fin 128), j = ix2 p q := ⟨j 0, j 1, eq_ix2 j⟩
  obtain ⟨r, q', rfl⟩ : ∃ (r : Fin 8192) (q' : Fin 128), i = ix2 r q' := ⟨i 0, i 1, eq_ix2 i⟩
  obtain rfl : q' = q := Fin.ext h1
  exact point_apply V c t p q' r h0

/-- What point `t` writes back is block `t` of the projected rows. -/
theorem flushed_eq (c : Dev nD) (t : Fin cfg0.N) :
    (dat0 (F := Ideal) V c).flushed 2 t
      = ((cfg0.win 2).blk t).view.read (Elt Ideal) (proj (V c main_arg0) (V c main_arg1)) := by
  show (cfg0.win 2).cut (grid0.coords t) ((dat0 V c).after 2 t) = _
  rw [after0_2]
  obtain ⟨-, -, -, -, e0, e1⟩ := block_index t
  funext j
  refine point_apply_at V c t j (((cfg0.win 2).blk t).view.emb j) ?_ ?_
  · show win0_2.index t (0 : Fin 2) * 1024 + 1 * (j 0).val = _; rw [e0]; omega
  · show win0_2.index t (1 : Fin 2) * 128 + 1 * (j 1).val = _; rw [e1]; omega

/-- An index of the output array is in point `t`'s block iff each coordinate is in the block's range on its axis. -/
theorem mem_block (t : Fin cfg0.N) (i : S8192x128.Idx) :
    i ∈ ((cfg0.win 2).blk t).view.set
      ↔ ∀ a : Fin 2, win0_2.index t a * S1024x128.size a ≤ (i a).val
          ∧ (i a).val < win0_2.index t a * S1024x128.size a + S1024x128.size a := by
  show i ∈ ((View.whole main_v0).slice (win0_2.rect t)).set ↔ _
  rw [View.set_slice_whole, Rect.mem_set_unit]
  exact Iff.rfl

/-- Every row of the output array is in the block of the point its row number divided by 1024 names. -/
theorem rows_covered (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have ht : (i 0).val / 1024 < 8 := by omega
  refine ⟨⟨(i 0).val / 1024, ht⟩, flush0_2 _, ?_⟩
  obtain ⟨-, -, -, -, e0, e1⟩ := block_index ⟨(i 0).val / 1024, ht⟩
  rw [mem_block]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_2.index ⟨(i 0).val / 1024, ht⟩ (1 : Fin 2) * 128 ≤ (i 1).val
      ∧ (i 1).val < win0_2.index ⟨(i 0).val / 1024, ht⟩ (1 : Fin 2) * 128 + 128
    rw [e1]
    omega

end Proj

/-- After the eight points the output array holds the projected rows of the two arguments as the region found them. -/
theorem proj_final (c : Dev nD) :
    (dat0 (F := Ideal) V c).arrAt 2 cfg0.N = proj (V c main_arg0) (V c main_arg1) :=
  (dat0 (F := Ideal) V c).arrAt_eq_of_cover 2 (proj (V c main_arg0) (V c main_arg1))
    (fun t _ => Proj.flushed_eq V c t) Proj.rows_covered

end Cert.KernelIdeal.Frame

end
-- ==== Proof.KI.Value1.lean ====
/-
  What the distance region leaves in its output array: the table of squared distances of the rows it read.

  The output is an 8 x 8 grid of 1024 x 1024 tiles; point `t` of the grid is tile `(t / 8, t % 8)`. The tile's
  entry `(p, q)` is computed from row `p` of the row block (array row `1024 (t / 8) + p`) and row `q` of the
  column block (array row `1024 (t % 8) + q`), and the constant is added on the tile's own diagonal exactly at the
  points with `t / 8 = t % 8`: there `p = q` says the two array rows are one, and at every other point the two array
  rows differ. So every tile is its block of one table, the distance table of the array's rows, and the tiles cover
  the output.
-/
import proofs.«165348_j25958782337133_1_alg».proof.Proof.KI.Region1
import proofs.«165348_j25958782337133_1_alg».proof.Proof.KI.Tile
import Idealize.ShloMosaic.Lib.Pipeline.Value

set_option maxRecDepth 16384

noncomputable section

namespace Cert.KernelIdeal.Frame

open Idealize.ShloMosaic Idealize.ShloMosaic.TcCoe Idealize.ShloMosaic.ValueIdx
open Idealize.ShloMosaic.Pipeline (Dat Cfg Window)
open Cert.KernelIdeal Cert.KernelIdeal.Gen Cert.Dist Cert.DenseLayer

/-! ## The norm expansion depends on its two matrices through one row of each -/

theorem rowDot_congr {a b a' b' K : ℕ} (x : Mat a K) (y : Mat b K) (x' : Mat a' K) (y' : Mat b' K)
    (r : Fin a) (c : Fin b) (r' : Fin a') (c' : Fin b')
    (hx : ∀ k, x (ix2 r k) = x' (ix2 r' k)) (hy : ∀ k, y (ix2 c k) = y' (ix2 c' k)) :
    rowDot x y r c = rowDot x' y' r' c' :=
  Finset.sum_congr rfl fun k _ => by rw [hx k, hy k]

theorem expand_congr {a b a' b' K : ℕ} (x : Mat a K) (y : Mat b K) (x' : Mat a' K) (y' : Mat b' K)
    (r : Fin a) (c : Fin b) (r' : Fin a') (c' : Fin b')
    (hx : ∀ k, x (ix2 r k) = x' (ix2 r' k)) (hy : ∀ k, y (ix2 c k) = y' (ix2 c' k)) :
    expand x y r c = expand x' y' r' c' := by
  unfold expand
  rw [rowDot_congr x x x' x' r r r' r' hx hx, rowDot_congr y y y' y' c c c' c' hy hy,
    rowDot_congr x y x' y' r c r' c' hx hy]

/-! ## The grid, decided over its 64 points -/

theorem hz : (![0, 0] : Fin 2 → Nat) = fun _ => 0 := funext fun a => by fin_cases a <;> rfl

/-- Point `t` reads the row block `t / 8` and the column block `t % 8` of the one input array and writes the
    tile `(t / 8, t % 8)`. -/
theorem blockIdx : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8 :=
  (by decide +kernel : ∀ t : Fin grid1.N, _)

/-- The body's first branch runs exactly at the points of the grid's diagonal. -/
theorem onDiag_iff : ∀ t : Fin cfg1.N, k1_cond1 (grid1.coords t) = 1#1 ↔ t.val / 8 = t.val % 8 :=
  (by decide +kernel : ∀ t : Fin grid1.N, k1_cond1 (grid1.coords t) = 1#1 ↔ t.val / 8 = t.val % 8)

variable (V : (c : Dev nD) → (b : Ref sig .tc) → Buf (Elt Ideal) ((c : Thread nD τ).loc b))

/-! ## Each input block as rows of the array -/

/-- Row `p` of the row block at point `t` is row `1024 (t / 8) + p` of the array. -/
theorem rowBlock_apply (c : Dev nD) (t : Fin cfg1.N) (p : Fin 1024) (k : Fin 128) (r : Fin 8192)
    (hr : r.val = 1024 * (t.val / 8) + p.val) :
    (iblk1 (F := Ideal) V c 0 t : Vec Ideal S1024x128 .f32) (ix2 p k) = (V c main_v0 : Mat 8192 128) (ix2 r k) := by
  obtain ⟨e0, e1, -⟩ := blockIdx t
  unfold iblk1
  rw [View.read_apply]
  show V c main_v0 _ = V c main_v0 _
  congr 1
  funext a; apply Fin.ext
  match a with
  | ⟨0, _⟩ => show win1_0.index t (0 : Fin 2) * 1024 + 1 * p.val = r.val; rw [e0, hr]; omega
  | ⟨1, _⟩ => show win1_0.index t (1 : Fin 2) * 128 + 1 * k.val = k.val; rw [e1]; omega

/-- Row `q` of the column block at point `t` is row `1024 (t % 8) + q` of the array. -/
theorem colBlock_apply (c : Dev nD) (t : Fin cfg1.N) (q : Fin 1024) (k : Fin 128) (r : Fin 8192)
    (hr : r.val = 1024 * (t.val % 8) + q.val) :
    (iblk1 (F := Ideal) V c 1 t : Vec Ideal S1024x128 .f32) (ix2 q k) = (V c main_v0 : Mat 8192 128) (ix2 r k) := by
  obtain ⟨-, -, e0, e1, -⟩ := blockIdx t
  unfold iblk1
  rw [View.read_apply]
  show V c main_v0 _ = V c main_v0 _
  congr 1
  funext a; apply Fin.ext
  match a with
  | ⟨0, _⟩ => show win1_1.index t (0 : Fin 2) * 1024 + 1 * q.val = r.val; rw [e0, hr]; omega
  | ⟨1, _⟩ => show win1_1.index t (1 : Fin 2) * 128 + 1 * k.val = k.val; rw [e1]; omega

/-! ## The tile a point leaves, entry by entry -/

/-- Entry `(p, q)` of the tile point `t` leaves is entry `(1024 (t / 8) + p, 1024 (t % 8) + q)` of the distance table
    of the array's rows. -/
theorem tile_apply (c : Dev nD) (t : Fin cfg1.N) (p q : Fin 1024) (r s : Fin 8192)
    (hr : r.val = 1024 * (t.val / 8) + p.val) (hs : s.val = 1024 * (t.val % 8) + q.val) :
    out1_2 (F := Ideal) (grid1.coords t) (iblk1 V c 0 t) (iblk1 V c 1 t) (ix2 p q) = dist (V c main_v0) (ix2 r s) := by
  have hE : expand (iblk1 (F := Ideal) V c 0 t : Vec Ideal S1024x128 .f32) (iblk1 (F := Ideal) V c 1 t : Vec Ideal S1024x128 .f32) p q
      = expand (V c main_v0 : Mat 8192 128) (V c main_v0 : Mat 8192 128) r s :=
    expand_congr _ _ _ _ p q r s (fun k => rowBlock_apply V c t p k r hr) (fun k => colBlock_apply V c t q k s hs)
  rw [dist_apply]
  unfold out1_2
  by_cases hd : t.val / 8 = t.val % 8
  · rw [if_pos ((onDiag_iff t).mpr hd)]
    unfold outDiag
    rw [View.canon_unit_zero hz]
    simp only [View.ld_unit_zero (S := S1024x128) hz]
    rw [Tile.pay_diag_apply, hE]
    have hpq : p = q ↔ r = s := by
      constructor
      · intro h; apply Fin.ext; rw [hr, hs, hd, h]
      · intro h; apply Fin.ext; have := congrArg Fin.val h; omega
    rw [show (if p = q then eps else (0 : EReal)) = (if r = s then eps else 0) from if_congr hpq rfl rfl]
  · rw [if_neg (mt (onDiag_iff t).mp hd)]
    unfold outOff
    rw [View.canon_unit_zero hz]
    simp only [View.ld_unit_zero (S := S1024x128) hz]
    rw [Tile.pay_off_apply, hE]
    have hne : ¬ r = s := by
      intro h; have := congrArg Fin.val h; have := p.isLt; have := q.isLt; omega
    rw [if_neg hne, add_zero]

/-! ## From the tiles to the array -/

/-- What point `t` writes back is its block of the distance table of the array's rows. -/
theorem flushed_eq (c : Dev nD) (t : Fin cfg1.N) :
    (dat1 (F := Ideal) V c).flushed 2 t = ((cfg1.win 2).blk t).view.read (Elt Ideal) (dist (V c main_v0)) := by
  show (cfg1.win 2).cut (grid1.coords t) ((dat1 (F := Ideal) V c).after 2 t) = _
  rw [after1_2]
  obtain ⟨-, -, -, -, e0, e1⟩ := blockIdx t
  funext j
  obtain ⟨p, q, rfl⟩ : ∃ (p : Fin 1024) (q : Fin 1024), j = ix2 p q := ⟨j 0, j 1, eq_ix2 j⟩
  have hp := p.isLt
  have hq := q.isLt
  have ht : t.val < 64 := t.isLt
  rw [View.read_apply]
  show out1_2 (F := Ideal) (grid1.coords t) (iblk1 V c 0 t) (iblk1 V c 1 t) (ix2 p q) = dist (V c main_v0) _
  rw [tile_apply V c t p q ⟨1024 * (t.val / 8) + p.val, by omega⟩ ⟨1024 * (t.val % 8) + q.val, by omega⟩ rfl rfl]
  congr 1
  funext a; apply Fin.ext
  match a with
  | ⟨0, _⟩ => show 1024 * (t.val / 8) + p.val = win1_2.index t (0 : Fin 2) * 1024 + 1 * p.val; rw [e0]; omega
  | ⟨1, _⟩ => show 1024 * (t.val % 8) + q.val = win1_2.index t (1 : Fin 2) * 1024 + 1 * q.val; rw [e1]; omega

/-- An entry of the output is in point `t`'s tile iff each coordinate is in the tile's range on its axis. -/
theorem mem_blk (t : Fin cfg1.N) (i : S8192x8192.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- Entry `(r, s)` of the output is in the tile of point `8 (r / 1024) + s / 1024`. -/
theorem cover (i : S8192x8192.Idx) :
    ∃ t : Fin cfg1.N, (cfg1.win 2).flush t = true ∧ i ∈ ((cfg1.win 2).blk t).view.set := by
  have h0 : (i 0).val < 8192 := (i 0).isLt
  have h1 : (i 1).val < 8192 := (i 1).isLt
  have hN : cfg1.N = 64 := N_1
  let t : Fin cfg1.N := ⟨8 * ((i 0).val / 1024) + (i 1).val / 1024, by rw [hN]; omega⟩
  have tv : t.val = 8 * ((i 0).val / 1024) + (i 1).val / 1024 := rfl
  obtain ⟨-, -, -, -, e0, e1⟩ := blockIdx t
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; rw [e0, tv]; omega
  | ⟨1, _⟩ => show win1_2.index t (1 : Fin 2) * 1024 ≤ (i 1).val ∧ (i 1).val < win1_2.index t (1 : Fin 2) * 1024 + 1024; rw [e1, tv]; omega

/-- After the 64 points the output array holds the distance table of the rows the region found in `main_v0`. -/
theorem dist_final (c : Dev nD) :
    (dat1 (F := Ideal) V c).arrAt 2 cfg1.N = dist (V c main_v0) :=
  (dat1 (F := Ideal) V c).arrAt_eq_of_cover 2 (dist (V c main_v0)) (fun t _ => flushed_eq V c t) cover

end Cert.KernelIdeal.Frame

end
-- ==== Proof.RefValue.lean ====
/-
  The reference's run, its result named as the distance table of the projected rows.

  The reference multiplies its two arguments into the projected rows `P`, squares and sums each row into the
  vector of squared norms, lays that vector along the rows and along the columns of a square table, subtracts twice
  the table of inner products `P r · P c`, and adds a constant times the indicator of the diagonal, which it builds
  by comparing a table of row numbers with a table of column numbers. Each stage is read here at an index; the last
  stage at `(r, c)` is the norm expansion for rows `r` and `c` plus the constant where `r = c`.
-/
import proofs.«165348_j25958782337133_1_alg».proof.Proof.Gen.ReferenceIdeal.Read
import proofs.«165348_j25958782337133_1_alg».proof.Proof.Spec
import proofs.«165348_j25958782337133_1_alg».proof.Proof.LibPlainDot
import Idealize.ShloMosaic.Lib.ValueIdx
import Idealize.ShloMosaic.Lib.ValueLayout
import Idealize.ShloMosaic.Lib.StableHlo.Predicate
import Idealize.ShloMosaic.PureOps.Ideal.Laws

noncomputable section

namespace Cert.ReferenceIdeal.RefValue

open Idealize.ShloMosaic Idealize.ShloMosaic.TcCoe Idealize.SL.Sem Idealize.ShloMosaic.ValueIdx
open Idealize.ShloMosaic.StableHlo.Predicate
open Cert.ReferenceIdeal Cert.ReferenceIdeal.Gen Cert.ReferenceIdeal.Read Cert.Dist Cert.DenseLayer
open scoped BigOperators

/-! ## The indicator of the diagonal -/

/-- Two words compared for equality, the one-bit answer read as an unsigned integer: one where the words are equal,
    zero where they differ. -/
theorem uitofp_cmpi_eq (a b : BitVec 32) :
    FloatOps.uitofp (F := Ideal) .f32 (IntOp.cmpi .eq a b) = if a = b then (1 : EReal) else 0 := by
  show (((IntOp.cmpi .eq a b).toNat : ℝ) : EReal) = _
  by_cases h : a = b
  · rw [if_pos h, cmpi_eq_iff.mpr h]
    show (((1 : ℕ) : ℝ) : EReal) = 1
    rw [Nat.cast_one, EReal.coe_one]
  · rw [if_neg h, eq_zero_of_ne_one (fun h1 => h (cmpi_eq_iff.mp h1))]
    show (((0 : ℕ) : ℝ) : EReal) = 0
    rw [Nat.cast_zero, EReal.coe_zero]

/-- Row numbers below 8192 fit a 32-bit word: their words are equal exactly when the numbers are. -/
theorem ofNat_eq_iff (r c : Fin 8192) : BitVec.ofNat 32 r.val = BitVec.ofNat 32 c.val ↔ r = c := by
  constructor
  · intro h
    have h' := congrArg BitVec.toNat h
    simp only [BitVec.toNat_ofNat] at h'
    have hr := r.isLt
    have hc := c.isLt
    exact Fin.ext (by omega)
  · intro h
    rw [h]

/-! ## The stages read at an index -/

variable (x0 : (⟨S8192x1024, .f32⟩ : BufTy).Contents (Elt Ideal)) (x1 : (⟨S1024x128, .f32⟩ : BufTy).Contents (Elt Ideal))

/-- The first product is the table of projected rows. -/
theorem v0_eq : val_main_v0 (F := Ideal) x0 x1 = proj x0 x1 := funext fun i => by
  obtain ⟨r, q, rfl⟩ : ∃ (r : Fin 8192) (q : Fin 128), i = ix2 r q := ⟨i 0, i 1, eq_ix2 i⟩
  rw [val_main_v0_apply]
  show _ = ∑ k : Fin 1024, x0 (ix2 r k) * x1 (ix2 k q)
  refine Finset.sum_congr rfl fun k _ => ?_
  have hl : lidx_main_v0 (ix2 r q) k = ix2 r k := funext fun a => by
    match a with
    | ⟨0, _⟩ => rfl
    | ⟨1, _⟩ => rfl
  have hr : ridx_main_v0 (ix2 r q) k = ix2 k q := funext fun a => by
    match a with
    | ⟨0, _⟩ => rfl
    | ⟨1, _⟩ => rfl
  rw [hl, hr]

/-- The sum of the squares along row `p` of the projected rows, from zero: the inner product of the row with itself. -/
theorem v2_apply (p : Fin 8192) :
    val_main_v2 (F := Ideal) x0 x1 (ix1 p) = rowDot (proj x0 x1) (proj x0 x1) p p := by
  rw [val_main_v2_apply]
  show Ideal.ofBits .f32 0x00000000#32 + _ = _
  rw [Ideal.ofBits_zero_f32, zero_add]
  show _ = ∑ k : Fin 128, proj x0 x1 (ix2 p k) * proj x0 x1 (ix2 p k)
  refine Finset.sum_congr rfl fun k _ => ?_
  have hi : idx_main_v2 (ix1 p) k = ix2 p k := funext fun a => by
    match a with
    | ⟨0, _⟩ => rfl
    | ⟨1, _⟩ => rfl
  rw [hi, val_main_v1_apply, v0_eq]
  rfl

/-- The product of the projected rows with their transpose at `(r, c)`: the inner product of rows `r` and `c`. -/
theorem v4_apply (r c : Fin 8192) :
    val_main_v4 (F := Ideal) x0 x1 (ix2 r c) = rowDot (proj x0 x1) (proj x0 x1) r c := by
  rw [val_main_v4_apply]
  show _ = ∑ k : Fin 128, proj x0 x1 (ix2 r k) * proj x0 x1 (ix2 c k)
  refine Finset.sum_congr rfl fun k _ => ?_
  have hl : lidx_main_v4 (ix2 r c) k = ix2 r k := funext fun a => by
    match a with
    | ⟨0, _⟩ => rfl
    | ⟨1, _⟩ => rfl
  have hr : idx_main_v3 (ridx_main_v4 (ix2 r c) k) = ix2 c k := funext fun a => by
    match a with
    | ⟨0, _⟩ => rfl
    | ⟨1, _⟩ => rfl
  rw [val_main_v3_apply, hl, hr, v0_eq]

/-- The squared norms laid over the columns: at `(r, c)` the squared norm of row `r`. -/
theorem v7_apply (r c : Fin 8192) :
    val_main_v7 (F := Ideal) x0 x1 (ix2 r c) = rowDot (proj x0 x1) (proj x0 x1) r r := by
  have hi : idx_main_v5 (idx_main_v7 (ix2 r c)) = ix1 r := funext fun a => by
    match a with
    | ⟨0, _⟩ => rfl
  rw [val_main_v7_apply, val_main_v5_apply, hi, v2_apply]

/-- The squared norms laid over the rows: at `(r, c)` the squared norm of row `c`. -/
theorem v8_apply (r c : Fin 8192) :
    val_main_v8 (F := Ideal) x0 x1 (ix2 r c) = rowDot (proj x0 x1) (proj x0 x1) c c := by
  have hi : idx_main_v6 (idx_main_v8 (ix2 r c)) = ix1 c := funext fun a => by
    match a with
    | ⟨0, _⟩ => rfl
  rw [val_main_v8_apply, val_main_v6_apply, hi, v2_apply]

/-- The two squared norms less twice the inner product: the norm expansion for rows `r` and `c`. -/
theorem v12_apply (r c : Fin 8192) :
    val_main_v12 (F := Ideal) x0 x1 (ix2 r c) = expand (proj x0 x1) (proj x0 x1) r c := by
  rw [val_main_v12_apply, val_main_v9_apply, val_main_v11_apply, v7_apply, v8_apply, v4_apply, val_main_v10_apply]
  rfl

/-- The constant times the converted comparison of the row number with the column number: the constant on the
    diagonal, zero off it. -/
theorem v20_apply (r c : Fin 8192) :
    val_main_v20 (F := Ideal) (ix2 r c) = if r = c then eps else 0 := by
  rw [val_main_v20_apply, val_main_v18_apply, val_main_v17_apply, val_main_v16_apply, val_main_v13_apply,
    val_main_v15_apply, val_main_c_apply, val_main_v14_apply, val_main_v19_apply, val_main_cst_1_apply]
  show FloatOps.uitofp (F := Ideal) .f32 (IntOp.cmpi .eq (BitVec.ofNat 32 r.val + 0#32) (BitVec.ofNat 32 c.val)) * eps = _
  rw [BitVec.add_zero, uitofp_cmpi_eq]
  by_cases h : r = c
  · rw [if_pos h, if_pos ((ofNat_eq_iff r c).mpr h), one_mul]
  · rw [if_neg h, if_neg (fun h' => h ((ofNat_eq_iff r c).mp h')), zero_mul]

/-- The reference's result is the distance table of the projected rows. -/
theorem v21_eq : val_main_v21 (F := Ideal) x0 x1 = dist (proj x0 x1) := funext fun i => by
  obtain ⟨r, c, rfl⟩ : ∃ (r : Fin 8192) (c : Fin 8192), i = ix2 r c := ⟨i 0, i 1, eq_ix2 i⟩
  rw [val_main_v21_apply, v12_apply, v20_apply, dist_apply]
  rfl

/-- Every weakly fair execution of the reference ends with its result at the distance table of the projected
    rows of its arguments, the arguments unchanged. -/
theorem run_dist (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21) = dist (proj (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans ((val_main_v21_eq (F := Ideal) (m ((c.tc : Thread nD τ).loc main_arg0)) (m ((c.tc : Thread nD τ).loc main_arg1))).trans
        (v21_eq (m ((c.tc : Thread nD τ).loc main_arg0)) (m ((c.tc : Thread nD τ).loc main_arg1)))), (h c).2⟩)
    (Cert.ReferenceIdeal.Value.run (F := Ideal) m ρ)

end Cert.ReferenceIdeal.RefValue

end
-- ==== Proof.lean ====
/-
  Squared pairwise distances of projected rows: a two-kernel program against its array-level reference.

  Both programs project the rows of an 8192 x 1024 matrix by a 1024 x 128 matrix and tabulate the squared
  distances between the projected rows by the norm expansion ‖a‖² + ‖b‖² − 2 a·b, adding a small constant
  on the diagonal. The kernel does the projection in one pipelined region (eight row blocks) and the
  table in a second (an 8 x 8 grid of tiles, each tile from the row block and the column block of the
  projected rows, the constant added in the tiles on the grid's diagonal); the reference is 26 array
  operations. Over the extended reals the two agree entry by entry with no use of finiteness: the
  kernel's roundings to a narrower float format are the identity there, a blocked sum is the same sum,
  and the only algebra is x + 0 = x, 1 · x = x and 0 · x = 0 for the diagonal term.

  The claims: each program runs to the end without a fault and leaves its arguments as it found them;
  the idealized kernel differs from the kernel as printed only by the two narrow-then-widen round trips
  the ideal pass removed; and the idealized kernel and the idealized reference end with equal results.
-/
import proofs.«165348_j25958782337133_1_alg».proof.Defs
import proofs.«165348_j25958782337133_1_alg».proof.Proof.Gen.Kernel
import proofs.«165348_j25958782337133_1_alg».proof.Proof.Gen.KernelIdeal
import proofs.«165348_j25958782337133_1_alg».proof.Proof.Gen.ReferenceIdeal
import proofs.«165348_j25958782337133_1_alg».proof.Proof.Gen.Pre_finite_inputs
import proofs.«165348_j25958782337133_1_alg».proof.Proof.K.Run
import proofs.«165348_j25958782337133_1_alg».proof.Proof.KI.Run
import proofs.«165348_j25958782337133_1_alg».proof.Proof.KI.Value0
import proofs.«165348_j25958782337133_1_alg».proof.Proof.KI.Value1
import proofs.«165348_j25958782337133_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Frame.frame m ρ

/-- So does the idealized kernel. -/
theorem frame_kernelIdeal : Cert.frame_KernelIdeal := fun m ρ _ => Cert.KernelIdeal.Frame.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run_dist m ρ)

/-- The ideal pass removed two round trips through the narrower format, one per input block of the
    distance kernel: at the ideal values each is the identity. -/
theorem preserves : Cert.preserves_Kernel_KernelIdeal :=
  ⟨IdealRules.truncf_extf.statement _ .f32 .bf16, IdealRules.truncf_extf.statement _ .f32 .bf16⟩

/-- What the idealized kernel leaves in its result: the distance table of the projected rows of its
    arguments — the distance region's table of the rows it read, which are what the projection region
    left, the projected rows of the arguments as launched. -/
theorem result_eq (m : (ℓ : Loc Cert.KernelIdeal.nD Cert.KernelIdeal.τ Cert.KernelIdeal.sig) → Buf (Elt Ideal) ℓ) (c : Dev Cert.KernelIdeal.nD) :
    Cert.KernelIdeal.Frame.result (F := Ideal) m c
      = Cert.Dist.dist (Cert.Dist.proj (m ((c.tc : Thread Cert.KernelIdeal.nD Cert.KernelIdeal.τ).loc Cert.KernelIdeal.main_arg0))
          (m ((c.tc : Thread Cert.KernelIdeal.nD Cert.KernelIdeal.τ).loc Cert.KernelIdeal.main_arg1))) :=
  (Cert.KernelIdeal.Frame.dist_final (Cert.KernelIdeal.Frame.V2 m) c).trans
    (congrArg Cert.Dist.dist ((Cert.KernelIdeal.Frame.V2_main_v0 m c).trans (Cert.KernelIdeal.Frame.proj_final (Cert.KernelIdeal.Frame.V0 m) c)))

/-- From memories that agree on the arguments both idealized programs end with the same table. -/
theorem algebraic : Cert.algebraic_KernelIdeal_ReferenceIdeal := by
  intro m ρ m' ρ' _ hagree
  refine ⟨fun c => Cert.Dist.dist (Cert.Dist.proj (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · exact (θ_run Cert.KernelIdeal.defs _ _).mono (fun _ h c => ⟨(h c).1.trans (result_eq m c), (h c).2⟩)
      (Cert.KernelIdeal.Frame.run_result (F := Ideal) m ρ)
  · refine (θ_run Cert.ReferenceIdeal.defs _ _).mono (fun _ h c => ⟨?_, (h c).2⟩)
      (Cert.ReferenceIdeal.RefValue.run_dist m' ρ')
    rw [(h c).1, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
